-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S64x256x2048 : Shape := ⟨3, ![64, 256, 2048]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S64x256x2048 : S_.BroadcastsInDim S64x256x2048 (![] : Fin 0 → Fin S64x256x2048.rank)
  reducesTo_S64x256x2048_S_d0_1_2 : S64x256x2048.ReducesTo [0, 1, 2] S_

variable [Facts]

def fn {F : FTy → Type} [FloatOps F] (main_arg0 : FVec F S128x256 .f32) (main_arg1 : FVec F S64x256x2048 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S64x256x2048 .f32 := Host.absf main_arg1
  let main_cst_0 : FVec F S_ .f32 := constant S_ .f32 0x7F800000#32
  let main_v5 : FVec F S64x256x2048 .f32 := broadcastInDim S64x256x2048 ![] bcast_S_S64x256x2048 main_cst_0
  let main_v6 : IVec S64x256x2048 1 := cmpf .olt main_v4 main_v5
  let main_c_1 : IVec S_ 1 := constantI S_ 1 1#1
  let main_v7 : IVec S_ 1 := (fun x v => Host.reduce IntOp.andi x v reducesTo_S64x256x2048_S_d0_1_2 h_S_) main_v6 main_c_1
  let main_v8 : IVec S_ 1 := andi main_v3 main_v7
  main_v8
-- ==== Kernel.lean ====
abbrev S128x256 : Shape := ⟨2, ![128, 256]⟩
abbrev S64x256x2048 : Shape := ⟨3, ![64, 256, 2048]⟩
abbrev S64x128x2048 : Shape := ⟨3, ![64, 128, 2048]⟩
abbrev S1x256x1024 : Shape := ⟨3, ![1, 256, 1024]⟩
abbrev S1x128x1024 : Shape := ⟨3, ![1, 128, 1024]⟩
abbrev S256x1024 : Shape := ⟨2, ![256, 1024]⟩
abbrev S128x1024 : Shape := ⟨2, ![128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S128x256, .f32⟩
  | .hbm, ⟨1, _⟩ => ⟨S64x256x2048, .f32⟩
  | .hbm, ⟨2, _⟩ => ⟨S128x256, .bf16⟩
  | .hbm, ⟨3, _⟩ => ⟨S64x128x2048, .f32⟩
  | .local _ .vmem, ⟨0, _⟩ => ⟨S128x256, .bf16⟩
  | .local _ .vmem, ⟨1, _⟩ => ⟨S1x256x1024, .f32⟩
  | .local _ .vmem, ⟨2, _⟩ => ⟨S1x256x1024, .f32⟩
  | .local _ .vmem, ⟨3, _⟩ => ⟨S1x128x1024, .f32⟩
  | .local _ .vmem, ⟨4, _⟩ => ⟨S1x128x1024, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  dot_S128x256_S256x1024_S128x1024_1_0_0_1_n_n_wf : DotDims.WF S128x256 S256x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x256.size a
  hwx0_0 : ∀ i : grid0.Coords, EltTy.bits .bf16 = 32 ∨ (Rect.block (s := S128x256) S128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S64x256x2048.size a
  hwx0_1 : ∀ i : grid0.Coords, EltTy.bits .f32 = 32 ∨ (Rect.block (s := S64x256x2048) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S64x128x2048.size a
  hwx0_2 : ∀ i : grid0.Coords, EltTy.bits .f32 = 32 ∨ (Rect.block (s := S64x128x2048) S1x128x1024.size (cc0_transform_2 i) (hinb0_2 i)).WholeWords (EltTy.packing .f32)

variable [Facts₀]

def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf

abbrev win0_0 : Pipeline.Window sig grid0 :=
  Pipeline.Window.ofSpec (Memref.whole main_v0) S128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x256 : Shape := ⟨2, ![128, 256]⟩
abbrev S64x256x2048 : Shape := ⟨3, ![64, 256, 2048]⟩
abbrev S64x128x2048 : Shape := ⟨3, ![64, 128, 2048]⟩
abbrev S1x256x2048 : Shape := ⟨3, ![1, 256, 2048]⟩
abbrev S1x128x2048 : Shape := ⟨3, ![1, 128, 2048]⟩
abbrev S256x2048 : Shape := ⟨2, ![256, 2048]⟩
abbrev S128x2048 : Shape := ⟨2, ![128, 2048]⟩

abbrev nBuf : Space → Nat
  | .hbm => 3
  | .vmem => 5
  | .smem => 0
  | _ => 0

abbrev bufTy : (tb : Table) → Fin (tcTables nBuf tb) → BufTy
  | .hbm, ⟨0, _⟩ => ⟨S128x256, .f32⟩
  | .hbm, ⟨1, _⟩ => ⟨S64x256x2048, .f32⟩
  | .hbm, ⟨2, _⟩ => ⟨S64x128x2048, .f32⟩
  | .local _ .vmem, ⟨0, _⟩ => ⟨S128x256, .f32⟩
  | .local _ .vmem, ⟨1, _⟩ => ⟨S1x256x2048, .f32⟩
  | .local _ .vmem, ⟨2, _⟩ => ⟨S1x256x2048, .f32⟩
  | .local _ .vmem, ⟨3, _⟩ => ⟨S1x128x2048, .f32⟩
  | .local _ .vmem, ⟨4, _⟩ => ⟨S1x128x2048, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x256_S128x256_0_0 : ∀ a, (![0, 0] : Fin 2 → Nat) a + S128x256.size a ≤ S128x256.size a
  h_S128x256 : 0 < S128x256.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x256.size a
  hwx0_0 : ∀ i : grid0.Coords, EltTy.bits .f32 = 32 ∨ (Rect.block (s := S128x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S64x256x2048.size a
  hwx0_1 : ∀ i : grid0.Coords, EltTy.bits .f32 = 32 ∨ (Rect.block (s := S64x256x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S64x128x2048.size a
  hwx0_2 : ∀ i : grid0.Coords, EltTy.bits .f32 = 32 ∨ (Rect.block (s := S64x128x2048) S1x128x2048.size (cc0_transform_2 i) (hinb0_2 i)).WholeWords (EltTy.packing .f32)

variable [Facts₀]

def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_arg0) S128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Tile.lean ====
/-
  One tile of a channel mix.

  A weight matrix `w` of shape `[M, K]` is multiplied into a slab `x` of shape `[1, K, N]`
  (one batch entry, `K` channels, `N` time steps): the slab is read as the `[K, N]` matrix
  it is, the product `w · x` is accumulated into an all-zero `[M, N]` array, and the result
  is given back its leading unit axis. In the extended reals nothing rounds and the sum has no
  order, so the entry at `(0, p, q)` is the plain sum over the channel index
      ∑ k : Fin K, w[p, k] * x[0, k, q].
  A change of float format of either operand before the product is the identity there and
  does not show in the statement.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«149961_g2000406248505700_pallasbulk_1107_2_alg».proof.Proof.LibDot2

noncomputable section

open scoped BigOperators

namespace Cert.Mix

open Idealize.ShloMosaic Idealize.ShloMosaic.ValueIdx

/-- The channel mix of a whole batch: `out[b, n, t] = ∑ c, w[n, c] * x[b, c, t]` over
    `b < 64`, `n < 128`, `t < 2048`, the sum over the `256` input channels. Both programs of
    this certificate end with their result array at this function of their two argument arrays. -/
def mix (w : (⟨2, ![128, 256]⟩ : Shape).Idx → EReal) (x : (⟨3, ![64, 256, 2048]⟩ : Shape).Idx → EReal) :
    (⟨3, ![64, 128, 2048]⟩ : Shape).Idx → EReal :=
  fun i => ∑ k : Fin 256, w (ix2 (i 1) k) * x (ix3 (i 0) k (i 2))

/-- The tile product at `(u, p, q)`: the leading axis has one entry, the unit axis the
    slab carries is dropped before the product and put back after it, and between the two
    stands the `[M, K]` by `[K, N]` product into zero, which is the sum over the channels. -/
theorem tile_apply {M K N : Nat} {φ₁ φ₂ : FTy}
    (wf : DotDims.WF ⟨2, ![M, K]⟩ ⟨2, ![K, N]⟩ ⟨2, ![M, N]⟩ [1] [0] [0] [1] [] [])
    (prec : Option ContractPrecision)
    (w : FVec Ideal ⟨2, ![M, K]⟩ φ₁) (x : FVec Ideal ⟨3, ![1, K, N]⟩ φ₂)
    (hdrop : (⟨3, ![1, K, N]⟩ : Shape).ShapeCasts ⟨2, ![K, N]⟩)
    (hadd : (⟨2, ![M, N]⟩ : Shape).ShapeCasts ⟨3, ![1, M, N]⟩)
    (u : Fin 1) (p : Fin M) (q : Fin N) :
    shapeCast ⟨3, ![1, M, N]⟩
        (FloatOps.matmul (Dot2.mmDims M K N wf) prec w (shapeCast ⟨2, ![K, N]⟩ x hdrop)
          (constant ⟨2, ![M, N]⟩ .f32 0x00000000#32)) hadd (ix3 u p q)
      = ∑ k : Fin K, w (ix2 p k) * x (ix3 (0 : Fin 1) k q) := by
  rw [shapeCast_ab_1ab_apply, Dot2.matmul_zero_mm_apply]
  refine Finset.sum_congr rfl fun k _ => ?_
  rw [shapeCast_1ab_ab_apply]

end Cert.Mix

end
-- ==== Proof.KernelSide.lean ====
/-
  The bf16 kernel's side of the channel mix.

  The program first rounds the weight to bf16 on the host (at the extended reals a change of
  float format is the identity, so the staged weight IS the weight), then runs one grid of
  64 × 2 points: point `(b, j)` reads the whole weight, the slab `x[b, :, 1024 j : 1024 (j+1)]`
  and writes the tile `out[b, :, 1024 j : 1024 (j+1)]`, the product of the weight with the slab.
  Read at an index, the tile at `(0, p, q)` is `∑ k, w[p, k] * x[b, k, 1024 j + q]`, which is the
  channel mix `Cert.Mix.mix` at `(b, p, 1024 j + q)`: each point writes back its block of ONE
  whole-array function, and the 128 blocks cover the output.
-/
import proofs.«149961_g2000406248505700_pallasbulk_1107_2_alg».proof.Proof.Gen.KernelIdeal.Value
import proofs.«149961_g2000406248505700_pallasbulk_1107_2_alg».proof.Proof.Tile
import Idealize.ShloMosaic.Lib.Pipeline.Value
import Idealize.ShloMosaic.Lib.StableHlo.Run
import Idealize.ShloMosaic.Lib.Tactic

set_option maxRecDepth 16384

noncomputable section

open scoped BigOperators

namespace Cert.KernelIdeal.MixValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's one stored value at `(u, p, q)` of its tile: the sum over the channels of the
    staged weight's row `p` against column `q` of the staged slab. -/
theorem tile_at (x0 : Vec Ideal S128x256 .bf16) (x1 : Vec Ideal S1x256x1024 .f32) (j : S1x128x1024.Idx) :
    k0_pay1 (F := Ideal) x0 x1 j = ∑ k : Fin 256, x0 (ix2 (j 1) k) * x1 (ix3 (0 : Fin 1) k (j 2)) := by
  obtain ⟨u, p, q, rfl⟩ : ∃ (u : Fin 1) (p : Fin 128) (q : Fin 1024), j = ix3 u p q := ⟨j 0, j 1, j 2, eq_ix3 j⟩
  have hfmt : ∀ (v : FVec Ideal S256x1024 .f32) (h : FTy.bits .bf16 < FTy.bits .f32), truncf (F := Ideal) .bf16 v h = v :=
    fun _ _ => rfl
  unfold k0_pay1
  rw [shapeCast_self, hfmt]
  exact Cert.Mix.tile_apply dot_S128x256_S256x1024_S128x1024_1_0_0_1_n_n_wf none x0 x1
    shapeCasts_S1x256x1024_S256x1024 shapeCasts_S128x1024_S1x128x1024 u p q

/-- The weight as the region finds it: the host's rounding to bf16 of the weight argument,
    which at the extended reals is the weight argument. -/
theorem staged_weight (c : Dev nD) :
    (V m c main_v0 : S128x256.Idx → EReal) = m ((c : Thread nD τ).loc main_arg0) := by
  dsimp only [V, hostOps0]
  after_results
  rfl

/-- The printed index maps over the 128 grid points: the weight's block never moves, the slab's
    block moves with the output's, and the output's block at point `t` is batch `t / 2`, time half `t % 2`. -/
theorem idx_facts : ∀ t : Fin cfg0.N,
    win0_0.index t (0 : Fin 2) = 0 ∧ win0_0.index t (1 : Fin 2) = 0
    ∧ win0_1.index t (0 : Fin 3) = win0_2.index t (0 : Fin 3)
    ∧ win0_1.index t (1 : Fin 3) = 0
    ∧ win0_1.index t (2 : Fin 3) = win0_2.index t (2 : Fin 3)
    ∧ win0_2.index t (0 : Fin 3) = t.val / 2
    ∧ win0_2.index t (1 : Fin 3) = 0
    ∧ win0_2.index t (2 : Fin 3) = t.val % 2 :=
  (by decide +kernel : ∀ t : Fin grid0.N, _)

/-- The weight's block at any point is the whole weight argument: its entry `(p, k)`, for `p` the row of an
    index `j` of the output's tile, is the argument's entry at the row of `j`'s place in the output array. -/
theorem weight_blk (c : Dev nD) (t : Fin cfg0.N) (k : Fin 256) (j : S1x128x1024.Idx) :
    ((iblk m c 0 t : Vec Ideal S128x256 .bf16) (ix2 (j 1) k) : EReal)
      = m ((c : Thread nD τ).loc main_arg0) (ix2 ((((cfg0.win 2).blk t).view.emb j) 1) k) := by
  obtain ⟨e0, e1, -, -, -, -, e6, -⟩ := idx_facts t
  unfold iblk
  rw [View.read_apply]
  show (V m c main_v0 : S128x256.Idx → EReal) _ = _
  rw [staged_weight]
  refine congrArg (m ((c : Thread nD τ).loc main_arg0)) ?_
  funext a; apply Fin.ext
  match a with
  | ⟨0, _⟩ => show win0_0.index t (0 : Fin 2) * 128 + 1 * (j 1).val = win0_2.index t (1 : Fin 3) * 128 + 1 * (j 1).val; omega
  | ⟨1, _⟩ => show win0_0.index t (1 : Fin 2) * 256 + 1 * k.val = k.val; omega

/-- The slab at point `t` is the batch entry and the time half of the output's block at `t`: its entry
    `(0, k, q)` is the argument's entry at the output block's coordinates of `(·, ·, q)`, channel `k`. -/
theorem slab_blk (c : Dev nD) (t : Fin cfg0.N) (k : Fin 256) (j : S1x128x1024.Idx) :
    ((iblk m c 1 t : Vec Ideal S1x256x1024 .f32) (ix3 (0 : Fin 1) k (j 2)) : EReal)
      = m ((c : Thread nD τ).loc main_arg1)
          (ix3 ((((cfg0.win 2).blk t).view.emb j) 0) k ((((cfg0.win 2).blk t).view.emb j) 2)) := by
  obtain ⟨-, -, e2, e3, e4, -⟩ := idx_facts t
  unfold iblk
  rw [View.read_apply]
  show V m c main_arg1 _ = _
  rw [V_main_arg1]
  refine congrArg (m ((c : Thread nD τ).loc main_arg1)) ?_
  funext a; apply Fin.ext
  have hj0 : (j 0).val < 1 := (j 0).isLt
  match a with
  | ⟨0, _⟩ => show win0_1.index t (0 : Fin 3) * 1 + 1 * 0 = win0_2.index t (0 : Fin 3) * 1 + 1 * (j 0).val; omega
  | ⟨1, _⟩ => show win0_1.index t (1 : Fin 3) * 256 + 1 * k.val = k.val; omega
  | ⟨2, _⟩ => show win0_1.index t (2 : Fin 3) * 1024 + 1 * (j 2).val = win0_2.index t (2 : Fin 3) * 1024 + 1 * (j 2).val; omega

/-- WHAT POINT `t` WRITES BACK is block `t` of the channel mix of the two argument arrays. -/
theorem flushed_eq (c : Dev nD) (t : Fin cfg0.N) :
    (dats m 0 c).flushed 2 t = ((cfg0.win 2).blk t).view.read (Elt Ideal)
      (Cert.Mix.mix (m ((c : Thread nD τ).loc main_arg0)) (m ((c : Thread nD τ).loc main_arg1))) := by
  rw [Cert.KernelIdeal.Value.flushed2]
  unfold out0_2
  rw [View.canon_unit_zero zero3]
  simp only [View.ld_unit_zero (S := S128x256) zero2, View.ld_unit_zero (S := S1x256x1024) zero3]
  funext j
  refine (tile_at (iblk m c 0 t) (iblk m c 1 t) j).trans ?_
  rw [View.read_apply]
  unfold Cert.Mix.mix
  refine Finset.sum_congr rfl fun k _ => ?_
  exact congrArg₂ (fun a b : EReal => a * b) (weight_blk m c t k j) (slab_blk m c t k j)

/-- An index of the output array is in point `t`'s block iff each coordinate is in the block's range on its axis. -/
theorem mem_blk (t : Fin cfg0.N) (i : S64x128x2048.Idx) :
    i ∈ ((cfg0.win 2).blk t).view.set ↔ ∀ a : Fin 3, win0_2.index t a * S1x128x1024.size a ≤ (i a).val ∧ (i a).val < win0_2.index t a * S1x128x1024.size a + S1x128x1024.size a := by
  show i ∈ ((View.whole main_v1).slice (win0_2.rect t)).set ↔ _
  rw [View.set_slice_whole, Rect.mem_set_unit]
  exact Iff.rfl

/-- Every index of the output is in some point's block: `(b, n, s)` is in the block of point `2 b + s / 1024`. -/
theorem cover (i : S64x128x2048.Idx) :
    ∃ t : Fin cfg0.N, (cfg0.win 2).flush t = true ∧ i ∈ ((cfg0.win 2).blk t).view.set := by
  have h0 : (i 0).val < 64 := (i 0).isLt
  have h1 : (i 1).val < 128 := (i 1).isLt
  have h2 : (i 2).val < 2048 := (i 2).isLt
  let t : Fin cfg0.N := ⟨2 * (i 0).val + (i 2).val / 1024, by rw [show cfg0.N = 128 from N_0]; omega⟩
  obtain ⟨-, -, -, -, -, e5, e6, e7⟩ := idx_facts t
  have ht : t.val = 2 * (i 0).val + (i 2).val / 1024 := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 1024 ≤ (i 2).val ∧ (i 2).val < win0_2.index t (2 : Fin 3) * 1024 + 1024; omega

/-- THE OUTPUT ARRAY after the run is the channel mix of the two argument arrays. -/
theorem final (c : Dev nD) : (dats m 0 c).arrAt 2 cfg0.N
    = Cert.Mix.mix (m ((c : Thread nD τ).loc main_arg0)) (m ((c : Thread nD τ).loc main_arg1)) :=
  (dats m 0 c).arrAt_eq_of_cover 2 _ (fun t _ => flushed_eq m c t) cover

/-- The run: the result array ends at the channel mix of the arguments, the arguments unchanged. -/
theorem run : θ_run defs (onTc (τ := τ) (main (F := Ideal))) ⟨m, fun _ => 0, ρ⟩ fun r => ∀ c : Dev nD,
      r.2.mem ((c : Thread nD τ).loc main_v1)
        = Cert.Mix.mix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.MixValue

end
-- ==== Proof.ReferenceSide.lean ====
/-
  The f32 reference's side of the channel mix.

  The reference runs one grid of 64 × 1 points: point `b` reads the whole weight, the slab
  `x[b, :, :]` of all 2048 time steps, and writes the tile `out[b, :, :]`, the product of the
  weight with the slab at full precision. In the extended reals the requested precision is not
  seen: the tile at `(0, p, q)` is `∑ k, w[p, k] * x[b, k, q]`, the channel mix `Cert.Mix.mix`
  at `(b, p, q)`. Each point writes back its block of that one whole-array function, and the 64
  blocks cover the output.
-/
import proofs.«149961_g2000406248505700_pallasbulk_1107_2_alg».proof.Proof.Gen.ReferenceIdeal.Value
import proofs.«149961_g2000406248505700_pallasbulk_1107_2_alg».proof.Proof.Tile
import Idealize.ShloMosaic.Lib.Pipeline.Value
import Idealize.ShloMosaic.Lib.Tactic

set_option maxRecDepth 16384

noncomputable section

open scoped BigOperators

namespace Cert.ReferenceIdeal.MixValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's one stored value at `(u, p, q)` of its tile: the sum over the channels of the
    weight's row `p` against column `q` of the staged slab. -/
theorem tile_at (x0 : Vec Ideal S128x256 .f32) (x1 : Vec Ideal S1x256x2048 .f32) (j : S1x128x2048.Idx) :
    k0_pay1 (F := Ideal) x0 x1 j = ∑ k : Fin 256, x0 (ix2 (j 1) k) * x1 (ix3 (0 : Fin 1) k (j 2)) := by
  obtain ⟨u, p, q, rfl⟩ : ∃ (u : Fin 1) (p : Fin 128) (q : Fin 2048), j = ix3 u p q := ⟨j 0, j 1, j 2, eq_ix3 j⟩
  unfold k0_pay1
  exact Cert.Mix.tile_apply dot_S128x256_S256x2048_S128x2048_1_0_0_1_n_n_wf (some .fp32) x0 x1
    shapeCasts_S1x256x2048_S256x2048 shapeCasts_S128x2048_S1x128x2048 u p q

/-- The printed index maps over the 64 grid points: the weight's block never moves, the slab's
    block moves with the output's, and the output's block at point `t` is batch `t`, all of the time axis. -/
theorem idx_facts : ∀ t : Fin cfg0.N,
    win0_0.index t (0 : Fin 2) = 0 ∧ win0_0.index t (1 : Fin 2) = 0
    ∧ win0_1.index t (0 : Fin 3) = win0_2.index t (0 : Fin 3)
    ∧ win0_1.index t (1 : Fin 3) = 0
    ∧ win0_1.index t (2 : Fin 3) = win0_2.index t (2 : Fin 3)
    ∧ win0_2.index t (0 : Fin 3) = t.val
    ∧ win0_2.index t (1 : Fin 3) = 0
    ∧ win0_2.index t (2 : Fin 3) = 0 :=
  (by decide +kernel : ∀ t : Fin grid0.N, _)

/-- The weight's block at any point is the whole weight argument: its entry `(p, k)`, for `p` the row of an
    index `j` of the output's tile, is the argument's entry at the row of `j`'s place in the output array. -/
theorem weight_blk (c : Dev nD) (t : Fin cfg0.N) (k : Fin 256) (j : S1x128x2048.Idx) :
    ((iblk m c 0 t : Vec Ideal S128x256 .f32) (ix2 (j 1) k) : EReal)
      = m ((c : Thread nD τ).loc main_arg0) (ix2 ((((cfg0.win 2).blk t).view.emb j) 1) k) := by
  obtain ⟨e0, e1, -, -, -, -, e6, -⟩ := idx_facts t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t (0 : Fin 2) * 128 + 1 * (j 1).val = win0_2.index t (1 : Fin 3) * 128 + 1 * (j 1).val; omega
  | ⟨1, _⟩ => show win0_0.index t (1 : Fin 2) * 256 + 1 * k.val = k.val; omega

/-- The slab at point `t` is the batch entry of the output's block at `t`: its entry `(0, k, q)` is the
    argument's entry at the output block's coordinates of `(·, ·, q)`, channel `k`. -/
theorem slab_blk (c : Dev nD) (t : Fin cfg0.N) (k : Fin 256) (j : S1x128x2048.Idx) :
    ((iblk m c 1 t : Vec Ideal S1x256x2048 .f32) (ix3 (0 : Fin 1) k (j 2)) : EReal)
      = m ((c : Thread nD τ).loc main_arg1)
          (ix3 ((((cfg0.win 2).blk t).view.emb j) 0) k ((((cfg0.win 2).blk t).view.emb j) 2)) := by
  obtain ⟨-, -, e2, e3, e4, -⟩ := idx_facts t
  unfold iblk
  rw [View.read_apply]
  show V m c main_arg1 _ = _
  rw [V_main_arg1]
  refine congrArg (m ((c : Thread nD τ).loc main_arg1)) ?_
  funext a; apply Fin.ext
  have hj0 : (j 0).val < 1 := (j 0).isLt
  match a with
  | ⟨0, _⟩ => show win0_1.index t (0 : Fin 3) * 1 + 1 * 0 = win0_2.index t (0 : Fin 3) * 1 + 1 * (j 0).val; omega
  | ⟨1, _⟩ => show win0_1.index t (1 : Fin 3) * 256 + 1 * k.val = k.val; omega
  | ⟨2, _⟩ => show win0_1.index t (2 : Fin 3) * 2048 + 1 * (j 2).val = win0_2.index t (2 : Fin 3) * 2048 + 1 * (j 2).val; omega

/-- WHAT POINT `t` WRITES BACK is block `t` of the channel mix of the two argument arrays. -/
theorem flushed_eq (c : Dev nD) (t : Fin cfg0.N) :
    (dats m 0 c).flushed 2 t = ((cfg0.win 2).blk t).view.read (Elt Ideal)
      (Cert.Mix.mix (m ((c : Thread nD τ).loc main_arg0)) (m ((c : Thread nD τ).loc main_arg1))) := by
  rw [Cert.ReferenceIdeal.Value.flushed2]
  unfold out0_2
  rw [View.canon_unit_zero zero3]
  simp only [View.ld_unit_zero (S := S128x256) zero2, View.ld_unit_zero (S := S1x256x2048) zero3]
  funext j
  refine (tile_at (iblk m c 0 t) (iblk m c 1 t) j).trans ?_
  rw [View.read_apply]
  unfold Cert.Mix.mix
  refine Finset.sum_congr rfl fun k _ => ?_
  exact congrArg₂ (fun a b : EReal => a * b) (weight_blk m c t k j) (slab_blk m c t k j)

/-- An index of the output array is in point `t`'s block iff each coordinate is in the block's range on its axis. -/
theorem mem_blk (t : Fin cfg0.N) (i : S64x128x2048.Idx) :
    i ∈ ((cfg0.win 2).blk t).view.set ↔ ∀ a : Fin 3, win0_2.index t a * S1x128x2048.size a ≤ (i a).val ∧ (i a).val < win0_2.index t a * S1x128x2048.size a + S1x128x2048.size a := by
  show i ∈ ((View.whole main_v0).slice (win0_2.rect t)).set ↔ _
  rw [View.set_slice_whole, Rect.mem_set_unit]
  exact Iff.rfl

/-- Every index of the output is in some point's block: `(b, n, s)` is in the block of point `b`. -/
theorem cover (i : S64x128x2048.Idx) :
    ∃ t : Fin cfg0.N, (cfg0.win 2).flush t = true ∧ i ∈ ((cfg0.win 2).blk t).view.set := by
  have h0 : (i 0).val < 64 := (i 0).isLt
  have h1 : (i 1).val < 128 := (i 1).isLt
  have h2 : (i 2).val < 2048 := (i 2).isLt
  let t : Fin cfg0.N := ⟨(i 0).val, by rw [show cfg0.N = 64 from N_0]; omega⟩
  obtain ⟨-, -, -, -, -, e5, e6, e7⟩ := idx_facts t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 2048 ≤ (i 2).val ∧ (i 2).val < win0_2.index t (2 : Fin 3) * 2048 + 2048; omega

/-- THE OUTPUT ARRAY after the run is the channel mix of the two argument arrays. -/
theorem final (c : Dev nD) : (dats m 0 c).arrAt 2 cfg0.N
    = Cert.Mix.mix (m ((c : Thread nD τ).loc main_arg0)) (m ((c : Thread nD τ).loc main_arg1)) :=
  (dats m 0 c).arrAt_eq_of_cover 2 _ (fun t _ => flushed_eq m c t) cover

/-- The run: the result array ends at the channel mix of the arguments, the arguments unchanged. -/
theorem run : θ_run defs (onTc (τ := τ) (main (F := Ideal))) ⟨m, fun _ => 0, ρ⟩ fun r => ∀ c : Dev nD,
      r.2.mem ((c : Thread nD τ).loc main_v0)
        = Cert.Mix.mix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.ReferenceIdeal.Value.run_blocks m ρ)

end Cert.ReferenceIdeal.MixValue

end
-- ==== Proof.lean ====
/-
  The bf16 channel combiner against the f32 one, over the extended reals.

  Both programs compute `out[b, n, t] = ∑ c, w[n, c] * x[b, c, t]` for a weight `w : [128, 256]` and
  a batch `x : [64, 256, 2048]`, each as one grid of matrix products on the matrix unit: the kernel
  rounds both operands to bf16 first and tiles the time axis in halves of 1024 (64 × 2 points), the
  reference keeps f32 at full precision and takes the whole time axis at once (64 × 1 points).
  Over the extended reals a change of float format is the identity and a product accumulated into
  zero is the plain sum over the channels, so every tile of either program is a block of the one
  function `Cert.Mix.mix` of the two argument arrays; the blocks of each grid cover the output, so
  both result arrays ARE that function (`Cert.KernelIdeal.MixValue.run`, `Cert.ReferenceIdeal.MixValue.run`),
  and from memories that agree on the arguments the two results are equal. No finiteness of the inputs
  is used: the two sides are the same sum, term by term.
  The three frame claims are the programs' generated frames; the idealization rewrote nothing, so
  there is nothing to preserve.
-/
import proofs.«149961_g2000406248505700_pallasbulk_1107_2_alg».proof.Defs
import proofs.«149961_g2000406248505700_pallasbulk_1107_2_alg».proof.Proof.Gen.Kernel
import proofs.«149961_g2000406248505700_pallasbulk_1107_2_alg».proof.Proof.Gen.Kernel.Skeleton
import proofs.«149961_g2000406248505700_pallasbulk_1107_2_alg».proof.Proof.Gen.Kernel.Launch
import proofs.«149961_g2000406248505700_pallasbulk_1107_2_alg».proof.Proof.Gen.Kernel.Points
import proofs.«149961_g2000406248505700_pallasbulk_1107_2_alg».proof.Proof.Gen.Kernel.Frame
import proofs.«149961_g2000406248505700_pallasbulk_1107_2_alg».proof.Proof.Gen.KernelIdeal
import proofs.«149961_g2000406248505700_pallasbulk_1107_2_alg».proof.Proof.Gen.KernelIdeal.Skeleton
import proofs.«149961_g2000406248505700_pallasbulk_1107_2_alg».proof.Proof.Gen.KernelIdeal.Launch
import proofs.«149961_g2000406248505700_pallasbulk_1107_2_alg».proof.Proof.Gen.KernelIdeal.Points
import proofs.«149961_g2000406248505700_pallasbulk_1107_2_alg».proof.Proof.Gen.KernelIdeal.Frame
import proofs.«149961_g2000406248505700_pallasbulk_1107_2_alg».proof.Proof.Gen.ReferenceIdeal
import proofs.«149961_g2000406248505700_pallasbulk_1107_2_alg».proof.Proof.Gen.ReferenceIdeal.Skeleton
import proofs.«149961_g2000406248505700_pallasbulk_1107_2_alg».proof.Proof.Gen.ReferenceIdeal.Launch
import proofs.«149961_g2000406248505700_pallasbulk_1107_2_alg».proof.Proof.Gen.ReferenceIdeal.Points
import proofs.«149961_g2000406248505700_pallasbulk_1107_2_alg».proof.Proof.Gen.ReferenceIdeal.Frame
import proofs.«149961_g2000406248505700_pallasbulk_1107_2_alg».proof.Proof.Gen.Pre_finite_inputs
import proofs.«149961_g2000406248505700_pallasbulk_1107_2_alg».proof.Proof.KernelSide
import proofs.«149961_g2000406248505700_pallasbulk_1107_2_alg».proof.Proof.ReferenceSide
import Idealize.ShloMosaic.Adequacy
import Idealize.ShloMosaic.Init

noncomputable section

namespace Cert.Proof

open Idealize.ShloMosaic Idealize.SL.Sem

/-- The five claims: the three generated frames, the empty idealization ledger, and the two result
    arrays as the one channel mix of arguments that agree. -/
theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ,
    fun m ρ _ => Cert.ReferenceIdeal.Gen.frame m ρ, trivial, ?_⟩
  intro m ρ m' ρ' _ hagree
  refine ⟨_, Cert.KernelIdeal.MixValue.run m ρ, ?_⟩
  refine (θ_run Cert.ReferenceIdeal.defs _ _).mono (fun _ h c => ⟨(h c).1.trans ?_, (h c).2⟩)
    (Cert.ReferenceIdeal.MixValue.run m' ρ')
  rw [(hagree c).1, (hagree c).2]⟩

end Cert.Proof

end
